-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x704512 : Shape := ⟨2, ![32, 704512]⟩
abbrev S1x704512 : Shape := ⟨2, ![1, 704512]⟩
abbrev S8x1x4096 : Shape := ⟨3, ![8, 1, 4096]⟩
abbrev S11008 : Shape := ⟨1, ![11008]⟩
abbrev S_ : Shape := ⟨0, ![]⟩

class Facts : Prop where
  bcast_S_S1x704512 : S_.BroadcastsInDim S1x704512 (![] : Fin 0 → Fin S1x704512.rank)
  reducesTo_S1x704512_S_d0_1 : S1x704512.ReducesTo [0, 1] S_
  h_S_ : 0 < S_.numel
  bcast_S_S8x1x4096 : S_.BroadcastsInDim S8x1x4096 (![] : Fin 0 → Fin S8x1x4096.rank)
  reducesTo_S8x1x4096_S_d0_1_2 : S8x1x4096.ReducesTo [0, 1, 2] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : IVec S32x704512 32) (main_arg1 : FVec F S1x704512 .f32) (main_arg2 : FVec F S1x704512 .f32) (main_arg3 : FVec F S8x1x4096 .f32) (main_arg4 : FVec F S11008 .f32) : IVec S_ 1 :=
  let main_v0 : FVec F S1x704512 .f32 := Host.absf main_arg1
  let main_cst : FVec F S_ .f32 := constant S_ .f32 0x7F800000#32
  let main_v1 : FVec F S1x704512 .f32 := broadcastInDim S1x704512 ![] bcast_S_S1x704512 main_cst
  let main_v2 : IVec S1x704512 1 := cmpf .olt main_v0 main_v1
  let main_c : IVec S_ 1 := constantI S_ 1 1#1
  let main_v3 : IVec S_ 1 := (fun x v => Host.reduce IntOp.andi x v reducesTo_S1x704512_S_d0_1 h_S_) main_v2 main_c
  let main_v4 : FVec F S1x704512 .f32 := Host.absf main_arg2
  let main_cst_0 : FVec F S_ .f32 := constant S_ .f32 0x7F800000#32
  let main_v5 : FVec F S1x704512 .f32 := broadcastInDim S1x704512 ![] bcast_S_S1x704512 main_cst_0
  let main_v6 : IVec S1x704512 1 := cmpf .olt main_v4 main_v5
  let main_c_1 : IVec S_ 1 := constantI S_ 1 1#1
  let main_v7 : IVec S_ 1 := (fun x v => Host.reduce IntOp.andi x v reducesTo_S1x704512_S_d0_1 h_S_) main_v6 main_c_1
  let main_v8 : IVec S_ 1 := andi main_v3 main_v7
  let main_v9 : FVec F S8x1x4096 .f32 := Host.absf main_arg3
  let main_cst_2 : FVec F S_ .f32 := constant S_ .f32 0x7F800000#32
  let main_v10 : FVec F S8x1x4096 .f32 := broadcastInDim S8x1x4096 ![] bcast_S_S8x1x4096 main_cst_2
  let main_v11 : IVec S8x1x4096 1 := cmpf .olt main_v9 main_v10
  let main_c_3 : IVec S_ 1 := constantI S_ 1 1#1
  let main_v12 : IVec S_ 1 := (fun x v => Host.reduce IntOp.andi x v reducesTo_S8x1x4096_S_d0_1_2 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S32x704512 : Shape := ⟨2, ![32, 704512]⟩
abbrev S1x704512 : Shape := ⟨2, ![1, 704512]⟩
abbrev S8x1x4096 : Shape := ⟨3, ![8, 1, 4096]⟩
abbrev S11008 : Shape := ⟨1, ![11008]⟩
abbrev S32x172x4096 : Shape := ⟨3, ![32, 172, 4096]⟩
abbrev S172x4096 : Shape := ⟨2, ![172, 4096]⟩
abbrev S8x4096 : Shape := ⟨2, ![8, 4096]⟩
abbrev S8x11008 : Shape := ⟨2, ![8, 11008]⟩
abbrev S8x5504 : Shape := ⟨2, ![8, 5504]⟩
abbrev S2 : Shape := ⟨1, ![2]⟩
abbrev S1 : Shape := ⟨1, ![1]⟩
abbrev S_ : Shape := ⟨0, ![]⟩
abbrev S1x172x4096 : Shape := ⟨3, ![1, 172, 4096]⟩
abbrev S8x172 : Shape := ⟨2, ![8, 172]⟩
abbrev S1x11008 : Shape := ⟨2, ![1, 11008]⟩
abbrev S8x1x11008 : Shape := ⟨3, ![8, 1, 11008]⟩

abbrev nBuf : Space → Nat
  | .hbm => 14
  | .vmem => 7
  | .smem => 0
  | _ => 0

abbrev bufTy : (tb : Table) → Fin (tcTables nBuf tb) → BufTy
  | .hbm, ⟨0, _⟩ => ⟨S32x704512, .i32⟩
  | .hbm, ⟨1, _⟩ => ⟨S1x704512, .f32⟩
  | .hbm, ⟨2, _⟩ => ⟨S1x704512, .f32⟩
  | .hbm, ⟨3, _⟩ => ⟨S8x1x4096, .f32⟩
  | .hbm, ⟨4, _⟩ => ⟨S11008, .f32⟩
  | .hbm, ⟨5, _⟩ => ⟨S32x172x4096, .i32⟩
  | .hbm, ⟨6, _⟩ => ⟨S172x4096, .f32⟩
  | .hbm, ⟨7, _⟩ => ⟨S172x4096, .f32⟩
  | .hbm, ⟨8, _⟩ => ⟨S8x4096, .f32⟩
  | .hbm, ⟨9, _⟩ => ⟨S8x11008, .f32⟩
  | .hbm, ⟨10, _⟩ => ⟨S1x11008, .f32⟩
  | .hbm, ⟨11, _⟩ => ⟨S8x11008, .f32⟩
  | .hbm, ⟨12, _⟩ => ⟨S8x11008, .f32⟩
  | .hbm, ⟨13, _⟩ => ⟨S8x1x11008, .f32⟩
  | .local _ .vmem, ⟨0, _⟩ => ⟨S8x4096, .f32⟩
  | .local _ .vmem, ⟨1, _⟩ => ⟨S172x4096, .f32⟩
  | .local _ .vmem, ⟨2, _⟩ => ⟨S172x4096, .f32⟩
  | .local _ .vmem, ⟨3, _⟩ => ⟨S8x5504, .f32⟩
  | .local _ .vmem, ⟨4, _⟩ => ⟨S8x5504, .f32⟩
  | .local _ .vmem, ⟨5, _⟩ => ⟨S172x4096, .i32⟩
  | .local _ .vmem, ⟨6, _⟩ => ⟨S172x4096, .i32⟩
  | _, _ => ⟨S32x704512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨1, ![2], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S172x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S172x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x5504 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x704512_S32x172x4096 : S32x704512.ShapeCasts S32x172x4096
  shapeCasts_S1x704512_S172x4096 : S1x704512.ShapeCasts S172x4096
  shapeCasts_S8x1x4096_S8x4096 : S8x1x4096.ShapeCasts S8x4096
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  bitsLt_bf16_f32 : FTy.bits .bf16 < FTy.bits .f32
  inb_S172x4096_S172x4096_0_0 : ∀ a, (![0, 0] : Fin 2 → Nat) a + S172x4096.size a ≤ S172x4096.size a
  h_S172x4096 : 0 < S172x4096.numel
  shapeCasts_S172x4096_S172x4096 : S172x4096.ShapeCasts S172x4096
  inb_S2_S1_0 : ∀ a, (![0] : Fin 1 → Nat) a + S1.size a ≤ S2.size a
  squeezes_S1_S_ : S1.Squeezes S_
  inb_S32x172x4096_S1x172x4096_0_0_0 : ∀ a, (![0, 0, 0] : Fin 3 → Nat) a + S1x172x4096.size a ≤ S32x172x4096.size a
  squeezes_S1x172x4096_S172x4096 : S1x172x4096.Squeezes S172x4096
  inb_S2_S1_1 : ∀ a, (![1] : Fin 1 → Nat) a + S1.size a ≤ S2.size a
  inb_S32x172x4096_S1x172x4096_1_0_0 : ∀ a, (![1, 0, 0] : Fin 3 → Nat) a + S1x172x4096.size a ≤ S32x172x4096.size a
  inb_S8x5504_S8x172_0_0 : ∀ a, (![0, 0] : Fin 2 → Nat) a + S8x172.size a ≤ S8x5504.size a
  h_S8x172 : 0 < S8x172.numel
  inb_S32x172x4096_S1x172x4096_2_0_0 : ∀ a, (![2, 0, 0] : Fin 3 → Nat) a + S1x172x4096.size a ≤ S32x172x4096.size a
  inb_S8x5504_S8x172_0_172 : ∀ a, (![0, 172] : Fin 2 → Nat) a + S8x172.size a ≤ S8x5504.size a
  inb_S32x172x4096_S1x172x4096_3_0_0 : ∀ a, (![3, 0, 0] : Fin 3 → Nat) a + S1x172x4096.size a ≤ S32x172x4096.size a
  inb_S8x5504_S8x172_0_344 : ∀ a, (![0, 344] : Fin 2 → Nat) a + S8x172.size a ≤ S8x5504.size a
  inb_S32x172x4096_S1x172x4096_4_0_0 : ∀ a, (![4, 0, 0] : Fin 3 → Nat) a + S1x172x4096.size a ≤ S32x172x4096.size a
  inb_S8x5504_S8x172_0_516 : ∀ a, (![0, 516] : Fin 2 → Nat) a + S8x172.size a ≤ S8x5504.size a
  inb_S32x172x4096_S1x172x4096_5_0_0 : ∀ a, (![5, 0, 0] : Fin 3 → Nat) a + S1x172x4096.size a ≤ S32x172x4096.size a
  inb_S8x5504_S8x172_0_688 : ∀ a, (![0, 688] : Fin 2 → Nat) a + S8x172.size a ≤ S8x5504.size a
  inb_S32x172x4096_S1x172x4096_6_0_0 : ∀ a, (![6, 0, 0] : Fin 3 → Nat) a + S1x172x4096.size a ≤ S32x172x4096.size a
  inb_S8x5504_S8x172_0_860 : ∀ a, (![0, 860] : Fin 2 → Nat) a + S8x172.size a ≤ S8x5504.size a
  inb_S32x172x4096_S1x172x4096_7_0_0 : ∀ a, (![7, 0, 0] : Fin 3 → Nat) a + S1x172x4096.size a ≤ S32x172x4096.size a
  inb_S8x5504_S8x172_0_1032 : ∀ a, (![0, 1032] : Fin 2 → Nat) a + S8x172.size a ≤ S8x5504.size a
  inb_S32x172x4096_S1x172x4096_8_0_0 : ∀ a, (![8, 0, 0] : Fin 3 → Nat) a + S1x172x4096.size a ≤ S32x172x4096.size a
  inb_S8x5504_S8x172_0_1204 : ∀ a, (![0, 1204] : Fin 2 → Nat) a + S8x172.size a ≤ S8x5504.size a
  inb_S32x172x4096_S1x172x4096_9_0_0 : ∀ a, (![9, 0, 0] : Fin 3 → Nat) a + S1x172x4096.size a ≤ S32x172x4096.size a
  inb_S8x5504_S8x172_0_1376 : ∀ a, (![0, 1376] : Fin 2 → Nat) a + S8x172.size a ≤ S8x5504.size a
  inb_S32x172x4096_S1x172x4096_10_0_0 : ∀ a, (![10, 0, 0] : Fin 3 → Nat) a + S1x172x4096.size a ≤ S32x172x4096.size a
  inb_S8x5504_S8x172_0_1548 : ∀ a, (![0, 1548] : Fin 2 → Nat) a + S8x172.size a ≤ S8x5504.size a
  inb_S32x172x4096_S1x172x4096_11_0_0 : ∀ a, (![11, 0, 0] : Fin 3 → Nat) a + S1x172x4096.size a ≤ S32x172x4096.size a
  inb_S8x5504_S8x172_0_1720 : ∀ a, (![0, 1720] : Fin 2 → Nat) a + S8x172.size a ≤ S8x5504.size a
  inb_S32x172x4096_S1x172x4096_12_0_0 : ∀ a, (![12, 0, 0] : Fin 3 → Nat) a + S1x172x4096.size a ≤ S32x172x4096.size a
  inb_S8x5504_S8x172_0_1892 : ∀ a, (![0, 1892] : Fin 2 → Nat) a + S8x172.size a ≤ S8x5504.size a
  inb_S32x172x4096_S1x172x4096_13_0_0 : ∀ a, (![13, 0, 0] : Fin 3 → Nat) a + S1x172x4096.size a ≤ S32x172x4096.size a
  inb_S8x5504_S8x172_0_2064 : ∀ a, (![0, 2064] : Fin 2 → Nat) a + S8x172.size a ≤ S8x5504.size a
  inb_S32x172x4096_S1x172x4096_14_0_0 : ∀ a, (![14, 0, 0] : Fin 3 → Nat) a + S1x172x4096.size a ≤ S32x172x4096.size a
  inb_S8x5504_S8x172_0_2236 : ∀ a, (![0, 2236] : Fin 2 → Nat) a + S8x172.size a ≤ S8x5504.size a
  inb_S32x172x4096_S1x172x4096_15_0_0 : ∀ a, (![15, 0, 0] : Fin 3 → Nat) a + S1x172x4096.size a ≤ S32x172x4096.size a
  inb_S8x5504_S8x172_0_2408 : ∀ a, (![0, 2408] : Fin 2 → Nat) a + S8x172.size a ≤ S8x5504.size a
  inb_S32x172x4096_S1x172x4096_16_0_0 : ∀ a, (![16, 0, 0] : Fin 3 → Nat) a + S1x172x4096.size a ≤ S32x172x4096.size a
  inb_S8x5504_S8x172_0_2580 : ∀ a, (![0, 2580] : Fin 2 → Nat) a + S8x172.size a ≤ S8x5504.size a
  inb_S32x172x4096_S1x172x4096_17_0_0 : ∀ a, (![17, 0, 0] : Fin 3 → Nat) a + S1x172x4096.size a ≤ S32x172x4096.size a
  inb_S8x5504_S8x172_0_2752 : ∀ a, (![0, 2752] : Fin 2 → Nat) a + S8x172.size a ≤ S8x5504.size a
  inb_S32x172x4096_S1x172x4096_18_0_0 : ∀ a, (![18, 0, 0] : Fin 3 → Nat) a + S1x172x4096.size a ≤ S32x172x4096.size a
  inb_S8x5504_S8x172_0_2924 : ∀ a, (![0, 2924] : Fin 2 → Nat) a + S8x172.size a ≤ S8x5504.size a
  inb_S32x172x4096_S1x172x4096_19_0_0 : ∀ a, (![19, 0, 0] : Fin 3 → Nat) a + S1x172x4096.size a ≤ S32x172x4096.size a
  inb_S8x5504_S8x172_0_3096 : ∀ a, (![0, 3096] : Fin 2 → Nat) a + S8x172.size a ≤ S8x5504.size a
  inb_S32x172x4096_S1x172x4096_20_0_0 : ∀ a, (![20, 0, 0] : Fin 3 → Nat) a + S1x172x4096.size a ≤ S32x172x4096.size a
  inb_S8x5504_S8x172_0_3268 : ∀ a, (![0, 3268] : Fin 2 → Nat) a + S8x172.size a ≤ S8x5504.size a
  inb_S32x172x4096_S1x172x4096_21_0_0 : ∀ a, (![21, 0, 0] : Fin 3 → Nat) a + S1x172x4096.size a ≤ S32x172x4096.size a
  inb_S8x5504_S8x172_0_3440 : ∀ a, (![0, 3440] : Fin 2 → Nat) a + S8x172.size a ≤ S8x5504.size a
  inb_S32x172x4096_S1x172x4096_22_0_0 : ∀ a, (![22, 0, 0] : Fin 3 → Nat) a + S1x172x4096.size a ≤ S32x172x4096.size a
  inb_S8x5504_S8x172_0_3612 : ∀ a, (![0, 3612] : Fin 2 → Nat) a + S8x172.size a ≤ S8x5504.size a
  inb_S32x172x4096_S1x172x4096_23_0_0 : ∀ a, (![23, 0, 0] : Fin 3 → Nat) a + S1x172x4096.size a ≤ S32x172x4096.size a
  inb_S8x5504_S8x172_0_3784 : ∀ a, (![0, 3784] : Fin 2 → Nat) a + S8x172.size a ≤ S8x5504.size a
  inb_S32x172x4096_S1x172x4096_24_0_0 : ∀ a, (![24, 0, 0] : Fin 3 → Nat) a + S1x172x4096.size a ≤ S32x172x4096.size a
  inb_S8x5504_S8x172_0_3956 : ∀ a, (![0, 3956] : Fin 2 → Nat) a + S8x172.size a ≤ S8x5504.size a
  inb_S32x172x4096_S1x172x4096_25_0_0 : ∀ a, (![25, 0, 0] : Fin 3 → Nat) a + S1x172x4096.size a ≤ S32x172x4096.size a
  inb_S8x5504_S8x172_0_4128 : ∀ a, (![0, 4128] : Fin 2 → Nat) a + S8x172.size a ≤ S8x5504.size a
  inb_S32x172x4096_S1x172x4096_26_0_0 : ∀ a, (![26, 0, 0] : Fin 3 → Nat) a + S1x172x4096.size a ≤ S32x172x4096.size a
  inb_S8x5504_S8x172_0_4300 : ∀ a, (![0, 4300] : Fin 2 → Nat) a + S8x172.size a ≤ S8x5504.size a
  inb_S32x172x4096_S1x172x4096_27_0_0 : ∀ a, (![27, 0, 0] : Fin 3 → Nat) a + S1x172x4096.size a ≤ S32x172x4096.size a
  inb_S8x5504_S8x172_0_4472 : ∀ a, (![0, 4472] : Fin 2 → Nat) a + S8x172.size a ≤ S8x5504.size a
  inb_S32x172x4096_S1x172x4096_28_0_0 : ∀ a, (![28, 0, 0] : Fin 3 → Nat) a + S1x172x4096.size a ≤ S32x172x4096.size a
  inb_S8x5504_S8x172_0_4644 : ∀ a, (![0, 4644] : Fin 2 → Nat) a + S8x172.size a ≤ S8x5504.size a
  inb_S32x172x4096_S1x172x4096_29_0_0 : ∀ a, (![29, 0, 0] : Fin 3 → Nat) a + S1x172x4096.size a ≤ S32x172x4096.size a
  inb_S8x5504_S8x172_0_4816 : ∀ a, (![0, 4816] : Fin 2 → Nat) a + S8x172.size a ≤ S8x5504.size a
  inb_S32x172x4096_S1x172x4096_30_0_0 : ∀ a, (![30, 0, 0] : Fin 3 → Nat) a + S1x172x4096.size a ≤ S32x172x4096.size a
  inb_S8x5504_S8x172_0_4988 : ∀ a, (![0, 4988] : Fin 2 → Nat) a + S8x172.size a ≤ S8x5504.size a
  inb_S32x172x4096_S1x172x4096_31_0_0 : ∀ a, (![31, 0, 0] : Fin 3 → Nat) a + S1x172x4096.size a ≤ S32x172x4096.size a
  inb_S8x5504_S8x172_0_5160 : ∀ a, (![0, 5160] : Fin 2 → Nat) a + S8x172.size a ≤ S8x5504.size a
  inb_S8x5504_S8x172_0_5332 : ∀ a, (![0, 5332] : Fin 2 → Nat) a + S8x172.size a ≤ S8x5504.size a
  shapeCasts_S11008_S1x11008 : S11008.ShapeCasts S1x11008
  bcast_S1x11008_S8x11008_0_1 : S1x11008.BroadcastsInDim S8x11008 (![0, 1] : Fin 2 → Fin S8x11008.rank)
  shapeCasts_S8x11008_S8x1x11008 : S8x11008.ShapeCasts S8x1x11008
  dot_S8x4096_S172x4096_S8x172_1_1_0_0_n_n_wf : DotDims.WF S8x4096 S172x4096 S8x172 [1] [1] [0] [0] [] []
  hcc0_scratch2 : 5 + S2.numel ≤ 7
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S8x4096.size a ≤ S8x4096.size a
  hwx0_0 : ∀ i : grid0.Coords, EltTy.bits .f32 = 32 ∨ (Rect.block (s := S8x4096) S8x4096.size (cc0_transform_1 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S172x4096.size a ≤ S172x4096.size a
  hwx0_1 : ∀ i : grid0.Coords, EltTy.bits .f32 = 32 ∨ (Rect.block (s := S172x4096) S172x4096.size (cc0_transform_2 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S172x4096.size a ≤ S172x4096.size a
  hwx0_2 : ∀ i : grid0.Coords, EltTy.bits .f32 = 32 ∨ (Rect.block (s := S172x4096) S172x4096.size (cc0_transform_3 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_4 i = cc0_transform_4 i'
  hinb0_3 : ∀ (i : grid0.Coords) a, (cc0_transform_4 i a + 1) * S8x5504.size a ≤ S8x11008.size a
  hwx0_3 : ∀ i : grid0.Coords, EltTy.bits .f32 = 32 ∨ (Rect.block (s := S8x11008) S8x5504.size (cc0_transform_4 i) (hinb0_3 i)).WholeWords (EltTy.packing .f32)

variable [Facts₀]

abbrev cc0_scratch2 : DmaSems sig S2 := SemArray.consecutive 5 S2 hcc0_scratch2
def dot_S8x4096_S172x4096_S8x172_1_1_0_0_n_n : DotDims S8x4096 S172x4096 S8x172 where
  lhsContracting := [1]
  rhsContracting := [1]
  lhsNonContracting := [0]
  rhsNonContracting := [0]
  lhsBatch := []
  rhsBatch := []
  wf := dot_S8x4096_S172x4096_S8x172_1_1_0_0_n_n_wf

abbrev win0_0 : Pipeline.Window sig grid0 :=
  Pipeline.Window.ofSpec (Memref.whole main_v3) S8x4096.size cc0_transform_1 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S172x4096.size cc0_transform_2 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S172x4096.size cc0_transform_3 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8x5504.size cc0_transform_4 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x704512 : Shape := ⟨2, ![32, 704512]⟩
abbrev S1x704512 : Shape := ⟨2, ![1, 704512]⟩
abbrev S8x1x4096 : Shape := ⟨3, ![8, 1, 4096]⟩
abbrev S11008 : Shape := ⟨1, ![11008]⟩
abbrev S_ : Shape := ⟨0, ![]⟩
abbrev S64x704512 : Shape := ⟨2, ![64, 704512]⟩
abbrev S11008x4096 : Shape := ⟨2, ![11008, 4096]⟩
abbrev S8x1x11008 : Shape := ⟨3, ![8, 1, 11008]⟩
abbrev S1x1x11008 : Shape := ⟨3, ![1, 1, 11008]⟩

abbrev nBuf : Space → Nat
  | .hbm => 25
  | .vmem => 0
  | .smem => 0
  | _ => 0

abbrev bufTy : (tb : Table) → Fin (tcTables nBuf tb) → BufTy
  | .hbm, ⟨0, _⟩ => ⟨S32x704512, .i32⟩
  | .hbm, ⟨1, _⟩ => ⟨S1x704512, .f32⟩
  | .hbm, ⟨2, _⟩ => ⟨S1x704512, .f32⟩
  | .hbm, ⟨3, _⟩ => ⟨S8x1x4096, .f32⟩
  | .hbm, ⟨4, _⟩ => ⟨S11008, .f32⟩
  | .hbm, ⟨5, _⟩ => ⟨S_, .i32⟩
  | .hbm, ⟨6, _⟩ => ⟨S32x704512, .i32⟩
  | .hbm, ⟨7, _⟩ => ⟨S32x704512, .i32⟩
  | .hbm, ⟨8, _⟩ => ⟨S_, .i32⟩
  | .hbm, ⟨9, _⟩ => ⟨S32x704512, .i32⟩
  | .hbm, ⟨10, _⟩ => ⟨S32x704512, .i32⟩
  | .hbm, ⟨11, _⟩ => ⟨S_, .i32⟩
  | .hbm, ⟨12, _⟩ => ⟨S32x704512, .i32⟩
  | .hbm, ⟨13, _⟩ => ⟨S32x704512, .i32⟩
  | .hbm, ⟨14, _⟩ => ⟨S64x704512, .i32⟩
  | .hbm, ⟨15, _⟩ => ⟨S64x704512, .f32⟩
  | .hbm, ⟨16, _⟩ => ⟨S64x704512, .f32⟩
  | .hbm, ⟨17, _⟩ => ⟨S64x704512, .f32⟩
  | .hbm, ⟨18, _⟩ => ⟨S64x704512, .f32⟩
  | .hbm, ⟨19, _⟩ => ⟨S64x704512, .f32⟩
  | .hbm, ⟨20, _⟩ => ⟨S11008x4096, .f32⟩
  | .hbm, ⟨21, _⟩ => ⟨S8x1x11008, .f32⟩
  | .hbm, ⟨22, _⟩ => ⟨S1x1x11008, .f32⟩
  | .hbm, ⟨23, _⟩ => ⟨S8x1x11008, .f32⟩
  | .hbm, ⟨24, _⟩ => ⟨S8x1x11008, .f32⟩
  | _, _ => ⟨S32x704512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S32x704512 : S_.BroadcastsInDim S32x704512 (![] : Fin 0 → Fin S32x704512.rank)
  concatenates_S32x704512_S32x704512_S64x704512_d0 : Shape.Concatenates [S32x704512, S32x704512] S64x704512 0
  bcast_S1x704512_S64x704512_0_1 : S1x704512.BroadcastsInDim S64x704512 (![0, 1] : Fin 2 → Fin S64x704512.rank)
  shapeCasts_S64x704512_S11008x4096 : S64x704512.ShapeCasts S11008x4096
  bcast_S11008_S1x1x11008_2 : S11008.BroadcastsInDim S1x1x11008 (![2] : Fin 1 → Fin S1x1x11008.rank)
  bcast_S1x1x11008_S8x1x11008_0_1_2 : S1x1x11008.BroadcastsInDim S8x1x11008 (![0, 1, 2] : Fin 3 → Fin S8x1x11008.rank)
  dot_S8x1x4096_S11008x4096_S8x1x11008_2_1_01_0_n_n_wf : DotDims.WF S8x1x4096 S11008x4096 S8x1x11008 [2] [1] [0, 1] [0] [] []

variable [Facts₀]

def dot_S8x1x4096_S11008x4096_S8x1x11008_2_1_01_0_n_n : DotDims S8x1x4096 S11008x4096 S8x1x11008 where
  lhsContracting := [2]
  rhsContracting := [1]
  lhsNonContracting := [0, 1]
  rhsNonContracting := [0]
  lhsBatch := []
  rhsBatch := []
  wf := dot_S8x1x4096_S11008x4096_S8x1x11008_2_1_01_0_n_n_wf

class Facts : Prop extends Facts₀ where

variable [Facts]
-- ==== Proof.Spec.lean ====
/-
  The mathematics both programs compute: a linear layer `y = x · Wᵀ + bias` whose weight matrix `W` (11008 × 4096) is
  stored quantized to 4-bit codes, two codes to a byte. A packed word `P[p, j]` (32 rows, 704512 columns) holds in bits
  4‥7 the code of stacked row `p` and in bits 0‥3 the code of stacked row `32 + p` of a 64 × 704512 code matrix; each
  column `j` has its own zero point and scale, `(code − zero[j]) · scale[j]`; and the 64 × 704512 matrix read row-major
  IS the 11008 × 4096 weight matrix: since 704512 = 172 · 4096, output feature `o = 172 · r + g` is stacked row `r`
  at columns `4096 · g + k`, `k` the input feature.
-/
import Idealize.ShloMosaic.PureOps.Ideal
import Idealize.ShloMosaic.Lib.ValueIdx

noncomputable section

open scoped BigOperators

namespace Hqq

open Idealize.ShloMosaic Idealize.ShloMosaic.ValueIdx

/-- The 4-bit code a packed word holds for stacked row `r` of the code matrix: rows 0‥31 take bits 4‥7, rows 32‥63
    bits 0‥3. -/
def code (r : Nat) (w : BitVec 32) : BitVec 32 := if r < 32 then w.sshiftRight 4 &&& 15#32 else w &&& 15#32

/-- The stacked row of the code matrix that output feature `o` lies in: 172 output features to a stacked row. -/
def srow (o : Fin 11008) : Fin 64 := ⟨o.val / 172, by have := o.isLt; omega⟩

/-- The packed row that holds stacked row `r`: rows `p` and `32 + p` share packed row `p`. -/
def prow (r : Fin 64) : Fin 32 := ⟨r.val % 32, Nat.mod_lt _ (by decide)⟩

/-- The column of the code matrix that holds input feature `k` of output feature `o`. -/
def col (o : Fin 11008) (k : Fin 4096) : Fin 704512 :=
  ⟨o.val % 172 * 4096 + k.val, by have := o.isLt; have := k.isLt; omega⟩

/-- The dequantized weight `W[o, k]`: the code, read as an integer, less its column's zero point, times its column's
    scale. -/
def weight (P : (⟨2, ![32, 704512]⟩ : Shape).Idx → BitVec 32) (scale zero : (⟨2, ![1, 704512]⟩ : Shape).Idx → EReal)
    (o : Fin 11008) (k : Fin 4096) : EReal :=
  ((((code (srow o).val (P (ix2 (prow (srow o)) (col o k)))).toInt : ℝ) : EReal) - zero (ix2 (0 : Fin 1) (col o k)))
    * scale (ix2 (0 : Fin 1) (col o k))

/-- The layer: `y[b, 0, o] = Σ_k x[b, 0, k] · W[o, k] + bias[o]`. -/
def linear (P : (⟨2, ![32, 704512]⟩ : Shape).Idx → BitVec 32) (scale zero : (⟨2, ![1, 704512]⟩ : Shape).Idx → EReal)
    (x : (⟨3, ![8, 1, 4096]⟩ : Shape).Idx → EReal) (bias : (⟨1, ![11008]⟩ : Shape).Idx → EReal) :
    (⟨3, ![8, 1, 11008]⟩ : Shape).Idx → EReal :=
  fun i => (∑ k : Fin 4096, x (ix3 (i 0 : Fin 8) (i 1 : Fin 1) k) * weight P scale zero (i 2 : Fin 11008) k)
    + bias (ix1 (i 2 : Fin 11008))

/-- Masking a word to its low byte first changes neither nibble: bits 4‥7 … -/
theorem hi_nibble_of_low_byte (w : BitVec 32) : (w &&& 255#32).sshiftRight 4 &&& 15#32 = w.sshiftRight 4 &&& 15#32 := by
  apply BitVec.eq_of_getLsbD_eq
  intro i hi
  simp only [BitVec.getLsbD_and, BitVec.getLsbD_sshiftRight]
  interval_cases i <;> simp

/-- … nor bits 0‥3. -/
theorem lo_nibble_of_low_byte (w : BitVec 32) : (w &&& 255#32) &&& 15#32 = w &&& 15#32 := by
  rw [BitVec.and_assoc]; rfl

end Hqq

end
-- ==== Proof.RefSide.lean ====
/-
  The reference program, read one element at a time, is the layer of `Spec.lean`:
  `y[b, 0, o] = Σ_k x[b, 0, k] · W[o, k] + bias[o]` with `W[o, k] = (code − zero) · scale`.

  The reference builds the 64 × 704512 code matrix by stacking the high nibbles of the 32 packed rows on their low
  nibbles, turns the codes into numbers, subtracts the zero points and multiplies by the scales column by column, reads
  the result row-major as the 11008 × 4096 weight matrix, contracts it with `x` and adds the bias. Each step is read at
  an index; the only arithmetic is the row-major re-reading: `704512 = 172 · 4096`, so position `(o, k)` of the weight
  matrix is position `(o / 172, (o % 172) · 4096 + k)` of the code matrix.
-/
import proofs.«419872_j29721173688947_3_alg».proof.Proof.Gen.ReferenceIdeal.Read
import proofs.«419872_j29721173688947_3_alg».proof.Proof.Spec
import Idealize.ShloMosaic.Lib.Pipeline.Value
import Idealize.ShloMosaic.Lib.ValueIdx
import Idealize.ShloMosaic.PureOps.Ideal

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## The indices each step reads at, over explicit coordinates -/

/-- The contraction reads `x` at `(b, 0, k)`. -/
theorem lidx_eq (b : Fin 8) (u : Fin 1) (o : Fin 11008) (k : Fin 4096) :
    lidx_main_v13 (ix3 b u o) k = ix3 b u k := by
  funext a
  match a with
  | ⟨0, _⟩ => rfl
  | ⟨1, _⟩ => rfl
  | ⟨2, _⟩ => rfl

/-- The contraction reads the weight matrix at `(o, k)`. -/
theorem ridx_eq (b : Fin 8) (u : Fin 1) (o : Fin 11008) (k : Fin 4096) :
    ridx_main_v13 (ix3 b u o) k = ix2 o k := by
  funext a
  match a with
  | ⟨0, _⟩ => rfl
  | ⟨1, _⟩ => rfl

/-- The bias is read at `o`. -/
theorem bias_idx_eq (b : Fin 8) (u : Fin 1) (o : Fin 11008) :
    idx_main_v14 (idx_main_v15 (ix3 b u o)) = ix1 o := by
  funext a
  match a with
  | ⟨0, _⟩ => rfl

/-- Row-major re-reading: position `(o, k)` of the 11008 × 4096 matrix is position `(o / 172, (o % 172) · 4096 + k)`
    of the 64 × 704512 matrix, since `704512 = 172 · 4096`. -/
theorem reshape_idx_eq (o : Fin 11008) (k : Fin 4096) :
    idx_main_v12 (ix2 o k) = ix2 (Hqq.srow o) (Hqq.col o k) := by
  have ho := o.isLt
  have hk := k.isLt
  funext a
  match a with
  | ⟨0, _⟩ =>
    apply Fin.ext
    show (o.val * 4096 + k.val) / 704512 = o.val / 172
    omega
  | ⟨1, _⟩ =>
    apply Fin.ext
    show (o.val * 4096 + k.val) % 704512 = o.val % 172 * 4096 + k.val
    omega

/-- The zero points are one row, read at the column. -/
theorem zero_idx_eq (r : Fin 64) (j : Fin 704512) : idx_main_v8 (ix2 r j) = ix2 (0 : Fin 1) j := by
  funext a
  match a with
  | ⟨0, _⟩ => rfl
  | ⟨1, _⟩ => rfl

/-- The scales are one row, read at the column. -/
theorem scale_idx_eq (r : Fin 64) (j : Fin 704512) : idx_main_v10 (ix2 r j) = ix2 (0 : Fin 1) j := by
  funext a
  match a with
  | ⟨0, _⟩ => rfl
  | ⟨1, _⟩ => rfl

/-! ## The code matrix -/

/-- An arithmetic shift by the literal 4 is in range. -/
theorem shrsi_four (w : BitVec 32) : IntOp.shrsi .host w 4#32 = w.sshiftRight 4 := by
  unfold IntOp.shrsi
  rw [if_pos (by decide)]
  rfl

/-- The high-nibble rows at `(p, j)`. -/
theorem hi_at (P : (⟨S32x704512, .i32⟩ : BufTy).Contents (Elt Ideal)) (i : S32x704512.Idx) :
    val_main_v3 (F := Ideal) P i = (P i).sshiftRight 4 &&& 15#32 := by
  rw [val_main_v3_apply, val_main_v1_apply, val_main_v0_apply, val_main_c_apply, val_main_v2_apply, val_main_c_0_apply,
    shrsi_four]
  rfl

/-- The low-nibble rows at `(p, j)`. -/
theorem lo_at (P : (⟨S32x704512, .i32⟩ : BufTy).Contents (Elt Ideal)) (i : S32x704512.Idx) :
    val_main_v5 (F := Ideal) P i = P i &&& 15#32 := by
  rw [val_main_v5_apply, val_main_v4_apply, val_main_c_1_apply]
  rfl

/-- The stacked code matrix at `(r, j)`: rows 0‥31 are the high nibbles of packed rows 0‥31, rows 32‥63 the low
    nibbles of the same packed rows; either way stacked row `r` reads packed row `r % 32`. -/
theorem code_at (P : (⟨S32x704512, .i32⟩ : BufTy).Contents (Elt Ideal)) (r : Fin 64) (j : Fin 704512) :
    val_main_v6 (F := Ideal) P (ix2 r j) = Hqq.code r.val (P (ix2 (Hqq.prow r) j)) := by
  have hr := r.isLt
  unfold val_main_v6
  by_cases h : r.val < 32
  · have hp : Hqq.prow r = ⟨r.val, h⟩ := Fin.ext (Nat.mod_eq_of_lt h)
    rw [concatenate_pair_apply_left (s₁ := S32x704512) (s₂ := S32x704512) (0 : Fin S64x704512.rank) _ _ _ (ix2 r j) rfl (ix2 (⟨r.val, h⟩ : Fin 32) j)
      (fun b => match b with
        | ⟨0, _⟩ => rfl
        | ⟨1, _⟩ => rfl)]
    rw [hi_at, Hqq.code, if_pos h, hp]
  · have h2 : r.val - 32 < 32 := by omega
    have hp : Hqq.prow r = ⟨r.val - 32, h2⟩ := Fin.ext (by show r.val % 32 = r.val - 32; omega)
    rw [concatenate_pair_apply_right (s₁ := S32x704512) (s₂ := S32x704512) (0 : Fin S64x704512.rank) _ _ _ (ix2 r j) rfl rfl (ix2 (⟨r.val - 32, h2⟩ : Fin 32) j)
      (fun b => match b with
        | ⟨0, _⟩ => fun hb => absurd rfl hb
        | ⟨1, _⟩ => fun _ => rfl)
      (by show r.val - 32 + 32 = r.val; omega)]
    rw [lo_at, Hqq.code, if_neg h, hp]

/-! ## The weight matrix and the layer -/

/-- The dequantized weight matrix at `(o, k)`. -/
theorem weight_at (P : (⟨S32x704512, .i32⟩ : BufTy).Contents (Elt Ideal))
    (scale zero : (⟨S1x704512, .f32⟩ : BufTy).Contents (Elt Ideal)) (o : Fin 11008) (k : Fin 4096) :
    val_main_v12 (F := Ideal) P scale zero (ix2 o k) = Hqq.weight P scale zero o k := by
  rw [val_main_v12_apply, reshape_idx_eq, val_main_v11_apply, val_main_v9_apply, val_main_v7_apply, val_main_v8_apply,
    val_main_v10_apply, zero_idx_eq, scale_idx_eq, code_at]
  rfl

theorem ref_eq_linear (P : (⟨Cert.ReferenceIdeal.S32x704512, .i32⟩ : BufTy).Contents (Elt Ideal)) (scale zero : (⟨Cert.ReferenceIdeal.S1x704512, .f32⟩ : BufTy).Contents (Elt Ideal)) (x : (⟨Cert.ReferenceIdeal.S8x1x4096, .f32⟩ : BufTy).Contents (Elt Ideal)) (bias : (⟨Cert.ReferenceIdeal.S11008, .f32⟩ : BufTy).Contents (Elt Ideal)) :
    Cert.ReferenceIdeal.Read.val_main_v16 (F := Ideal) P scale zero x bias = Hqq.linear P scale zero x bias := by
  funext i
  obtain ⟨b, u, o, rfl⟩ : ∃ (b : Fin 8) (u : Fin 1) (o : Fin 11008), i = ix3 b u o := ⟨i 0, i 1, i 2, eq_ix3 i⟩
  rw [val_main_v16_apply, val_main_v13_apply, val_main_v15_apply, val_main_v14_apply, bias_idx_eq]
  show (∑ k : Fin 4096, x (lidx_main_v13 (ix3 b u o) k) * val_main_v12 (F := Ideal) P scale zero (ridx_main_v13 (ix3 b u o) k))
      + bias (ix1 o)
    = (∑ k : Fin 4096, x (ix3 b u k) * Hqq.weight P scale zero o k) + bias (ix1 o)
  congr 1
  refine Finset.sum_congr rfl fun k _ => ?_
  rw [lidx_eq, ridx_eq, weight_at]

end Cert.ReferenceIdeal.RefValue

end
-- ==== Proof.Tile.lean ====
/-
  One 8 × 172 tile of the kernel's output, as ONE term: the activations `x` (8 × 4096) against 172 dequantized weight
  rows, each row's 4096 codes taken from one 172 × 4096 slab of packed words — the high nibble when the grid coordinate
  is 0, the low nibble otherwise —, less the zero points, times the scales. Every store of the kernel body writes this
  term at a different slab; the body's own cut into named payloads never enters the algebra.
-/
import proofs.«419872_j29721173688947_3_alg».proof.Proof.Gen.KernelIdeal.Skeleton

noncomputable section

namespace Cert.KernelIdeal.Tile

open Idealize.ShloMosaic Idealize.SL.Sem Cert.KernelIdeal

variable {F : FTy → Type} [FloatOps F]

/-- The activations as the body casts them before the product. -/
def actOf (x : Vec F S8x4096 .f32) : FVec F S8x4096 .bf16 :=
  truncf .bf16 (shapeCast S8x4096 x Gen.shapeCasts_S8x4096_S8x4096) Gen.bitsLt_bf16_f32

/-- The codes of a slab of packed words: bits 4‥7 of the low byte where the grid coordinate `a` is 0, bits 0‥3 of it
    otherwise. -/
def codesOf (a : BitVec 32) (w : Vec F S172x4096 .i32) : IVec S172x4096 32 :=
  Scalar.select (Scalar.cmpi .eq a 0#32)
    (andi (shrsi (andi w (broadcast S172x4096 255#32)) (broadcast S172x4096 4#32)) (broadcast S172x4096 15#32))
    (andi (andi w (broadcast S172x4096 255#32)) (broadcast S172x4096 15#32))

/-- The tile: `x` against the rows `(code − zero) · scale`, contracted over the 4096 input features. -/
def tileOf (a : BitVec 32) (x : Vec F S8x4096 .f32) (scale zero : Vec F S172x4096 .f32) (w : Vec F S172x4096 .i32) :
    FVec F S8x172 .f32 :=
  matmul dot_S8x4096_S172x4096_S8x172_1_1_0_0_n_n none (actOf x)
    (truncf .bf16 (mulf (subf (sitofp .f32 (codesOf a w)) (shapeCast S172x4096 zero Gen.shapeCasts_S172x4096_S172x4096))
      (shapeCast S172x4096 scale Gen.shapeCasts_S172x4096_S172x4096)) Gen.bitsLt_bf16_f32)
    (constant S8x172 .f32 0x00000000#32)

/-- A payload of the body, for the shape of the bridge: the second store's. -/
example (a : BitVec 32) (x : Vec F S8x4096 .f32) (scale zero : Vec F S172x4096 .f32) (w : Vec F S172x4096 .i32) :
    Gen.k0_pay7 a (Gen.k0_pay2 x) (Gen.k0_pay3 scale) (Gen.k0_pay4 zero) w = tileOf a x scale zero w := rfl

end Cert.KernelIdeal.Tile

end
-- ==== Proof.Block.lean ====
/-
  What one grid point leaves in the output block (8 × 5504): 32 tiles side by side, tile `t` (columns 172·t ‥ 172·t + 171)
  the product of the activations with the 172 weight rows dequantized from slab `t` of the packed words — the slab the
  body copied from the array left in HBM into one of its two scratch buffers just before —, nibble chosen by the grid
  coordinate. Each of the body's 32 stores is this tile (`Tile.tileOf`) at its own slab; a load of a scratch buffer
  after a completed copy reads the newest copy, and a copy of slab `t` reads the array at leading coordinate `t`.
-/
import proofs.«419872_j29721173688947_3_alg».proof.Proof.Gen.KernelIdeal.Frame
import proofs.«419872_j29721173688947_3_alg».proof.Proof.Tile
import Idealize.ShloMosaic.Lib.Pipeline.Value
import Idealize.ShloMosaic.Lib.ValueIdx

set_option maxRecDepth 16384

noncomputable section

namespace Cert.KernelIdeal.Block

open Idealize.ShloMosaic Idealize.ShloMosaic.TcCoe Idealize.ShloMosaic.Tactic Idealize.SL.Sem
open Idealize.ShloMosaic.ValueIdx
open Cert.KernelIdeal Cert.KernelIdeal.Gen Cert.KernelIdeal.Tile

variable {F : FTy → Type} [FloatOps F]

/-- Slab `t` of the packed words (32 × 172 × 4096): the 172 × 4096 words at leading coordinate `t`. -/
def slab (P : Vec F S32x172x4096 .i32) (t : ℕ) : Vec F S172x4096 .i32 :=
  fun y => P (ix3 (⟨t % 32, Nat.mod_lt _ (by decide)⟩ : Fin 32) (y 0 : Fin 172) (y 1 : Fin 4096))

/-- The block a grid point writes: column `q` lies in tile `q / 172` at the tile's column `q % 172`. -/
def blockOf (a : BitVec 32) (x : Vec F S8x4096 .f32) (scale zero : Vec F S172x4096 .f32) (P : Vec F S32x172x4096 .i32) :
    Vec F S8x5504 .f32 :=
  fun y => tileOf a x scale zero (slab P ((y 1).val / 172))
    (ix2 (y 0 : Fin 8) (⟨(y 1).val % 172, Nat.mod_lt _ (by decide)⟩ : Fin 172))

theorem zeros2 : (![0, 0] : Fin 2 → ℕ) = fun _ => 0 := by
  funext a; match a with | ⟨0, _⟩ => rfl | ⟨1, _⟩ => rfl

/-- A load of a whole buffer whose newest write is a whole-buffer copy reads that copy. -/
theorem readCov_whole_cons {sig' : RefSig} {κ : Kind} {sp : Space} {S : Shape} {e : EltTy} {Val : EltTy → Type}
    [∀ e, Nonempty (Val e)] (v : View sig' κ sp S e) {off : Fin S.rank → ℕ} (h : off = fun _ => 0)
    (inb : ∀ a, off a + S.size a ≤ S.size a) (w : S.Idx → Val e) (L : List (View.Piece Val S e)) :
    v.readCov ((⟨Rect.whole S, w⟩ : View.Piece Val S e) :: L) (Rect.unit off S.size inb).toLoadRect = w := by
  subst h
  exact View.readCov_cons_toLoadRect v (Rect.whole S) w L

/-- The array read through its slice at leading coordinate `t`, the unit axis dropped, is slab `t`. -/
theorem read_slab {κ : Kind} {sp : Space} (v : View sig κ sp S32x172x4096 .i32) (t : ℕ)
    (inb : ∀ a, (![t, 0, 0] : Fin 3 → ℕ) a + S1x172x4096.size a ≤ S32x172x4096.size a)
    (hn : S172x4096.numel = S1x172x4096.numel) (f : v.ty.Contents (Elt F)) :
    ((v.slice (Rect.unit (s := S32x172x4096) ![t, 0, 0] S1x172x4096.size inb)).reshape S172x4096 hn).read (Elt F) f
      = slab (v.read (Elt F) f) t := by
  funext y
  have h1 : ((v.slice (Rect.unit (s := S32x172x4096) ![t, 0, 0] S1x172x4096.size inb)).reshape S172x4096 hn).read (Elt F) f y
      = v.read (Elt F) f ((Rect.unit (s := S32x172x4096) ![t, 0, 0] S1x172x4096.size inb).emb (Shape.reshapeEquiv hn y)) := rfl
  rw [h1, Shape.reshapeEquiv_cons_one]
  unfold slab
  congr 1
  funext a
  apply Fin.ext
  rw [Rect.emb_apply]
  have ht : t + 1 ≤ 32 := inb 0
  match a with
  | ⟨0, _⟩ => show t + 1 * 0 = t % 32; omega
  | ⟨1, _⟩ => show 0 + 1 * (y 0).val = (y 0).val; omega
  | ⟨2, _⟩ => show 0 + 1 * (y 1).val = (y 1).val; omega

/-- The block at an index of its tile at column offset `o` (a multiple of 172) is tile `o / 172` there. -/
theorem blockOf_emb (a : BitVec 32) (x : Vec F S8x4096 .f32) (scale zero : Vec F S172x4096 .f32) (P : Vec F S32x172x4096 .i32)
    (o : ℕ) (ho : o % 172 = 0) (inb : ∀ a, (![0, o] : Fin 2 → ℕ) a + S8x172.size a ≤ S8x5504.size a) (z : S8x172.Idx) :
    blockOf a x scale zero P ((Rect.unit (s := S8x5504) ![0, o] S8x172.size inb).emb z)
      = tileOf a x scale zero (slab P (o / 172)) z := by
  have e0 : (((Rect.unit (s := S8x5504) ![0, o] S8x172.size inb).emb z) 0).val = (z 0).val := by
    rw [Rect.emb_apply]; show 0 + 1 * (z 0).val = _; omega
  have e1 : (((Rect.unit (s := S8x5504) ![0, o] S8x172.size inb).emb z) 1).val = o + (z 1).val := by
    rw [Rect.emb_apply]; show o + 1 * (z 1).val = _; omega
  have hz1 : (z 1).val < 172 := (z 1).isLt
  unfold blockOf
  have hA : (((Rect.unit (s := S8x5504) ![0, o] S8x172.size inb).emb z) 1).val / 172 = o / 172 := by rw [e1]; omega
  have hI : ix2 ((((Rect.unit (s := S8x5504) ![0, o] S8x172.size inb).emb z) 0 : Fin 8))
      (⟨(((Rect.unit (s := S8x5504) ![0, o] S8x172.size inb).emb z) 1).val % 172, Nat.mod_lt _ (by decide)⟩ : Fin 172) = z := by
    funext d
    match d with
    | ⟨0, _⟩ => exact Fin.ext e0
    | ⟨1, _⟩ => exact Fin.ext (by show (((Rect.unit (s := S8x5504) ![0, o] S8x172.size inb).emb z) 1).val % 172 = (z 1).val; rw [e1]; omega)
  rw [hA]
  exact congrArg (tileOf a x scale zero (slab P (o / 172))) hI

set_option maxHeartbeats 8000000 in
/-- What the body leaves in the output's staging buffer at a grid point with coordinate `i`: the block of the point's
    inputs and of the packed words as the region finds them. -/
theorem out_eq (c : Dev nD) (i : grid0.Coords) (arg2 : Memref sig .tc .vmem S8x4096 .f32) (harg2 : arg2.IsWhole) (arg3 : Memref sig .tc .vmem S172x4096 .f32) (harg3 : arg3.IsWhole) (arg4 : Memref sig .tc .vmem S172x4096 .f32) (harg4 : arg4.IsWhole) (arg5 : Memref sig .tc .vmem S8x5504 .f32) (harg5 : arg5.IsWhole) (arg6 : Memref sig .tc .vmem S172x4096 .i32) (harg6 : arg6.IsWhole) (arg7 : Memref sig .tc .vmem S172x4096 .i32) (harg7 : arg7.IsWhole)
    (x0 : Vec F S8x4096 .f32) (x1 : Vec F S172x4096 .f32) (x2 : Vec F S172x4096 .f32) (fh0 : HbBuf0 (F := F) c hbM0_0) :
    out0_A_3 c i arg2 harg2 arg3 harg3 arg4 harg4 arg5 harg5 arg6 harg6 arg7 harg7 x0 x1 x2 fh0
      = blockOf (BitVec.ofNat 32 (i 0).val) x0 x1 x2 (hbM0_0.view.read (Elt F) fh0) := by
  funext y
  unfold out0_A_3
  refine View.read_writes_apply_of_pieces VO0_3 _ _ _ ?_ y (cover0_A_3 c i arg2 harg2 arg3 harg3 arg4 harg4 arg5 harg5 arg6 harg6 arg7 harg7 x0 x1 x2 fh0 y)
  unfold kernelRun0_A
  dsimp only
  sl_unfold_words
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals (
    intro z
    simp only [View.readAt_eq_ld, harg2.read_unread, harg3.read_unread, harg4.read_unread,
      View.ld_unit_zero (S := S8x4096) zeros2, View.ld_unit_zero (S := S172x4096) zeros2,
      readCov_whole_cons (S := S172x4096) _ zeros2]
    rw [read_slab (F := F) (View.whole main_v0) _ _ _ fh0]
    refine Eq.trans (congrFun (?_ : _ = tileOf (BitVec.ofNat 32 (i 0).val) x0 x1 x2 (slab (hbM0_0.view.read (Elt F) fh0) _)) z)
      (blockOf_emb (BitVec.ofNat 32 (i 0).val) x0 x1 x2 (hbM0_0.view.read (Elt F) fh0) _ (by decide) _ z).symm
    rfl)

end Cert.KernelIdeal.Block

end
-- ==== Proof.Arrays.lean ====
/-
  The arrays the kernel's program computes with, named at their literal types, and its result as one term.
  Before the region the program re-reads its arguments row-major: the packed words (32 × 704512) as 32 slabs of
  172 × 4096, the scales and zero points (1 × 704512) as 172 × 4096, the activations (8 × 1 × 4096) as 8 × 4096. The
  region's output array (8 × 11008) is two blocks of 5504 columns, block `n` the block `Block.blockOf` of those arrays
  with the nibble chosen by `n`; the lines after the region add the bias along the columns and insert the unit axis.
-/
import proofs.«419872_j29721173688947_3_alg».proof.Proof.Gen.KernelIdeal.Frame
import proofs.«419872_j29721173688947_3_alg».proof.Proof.Block
import Idealize.ShloMosaic.Lib.ValueIdx

noncomputable section

namespace Cert.KernelIdeal.Result

open Idealize.ShloMosaic Idealize.ShloMosaic.TcCoe Idealize.SL.Sem
open Idealize.ShloMosaic.ValueIdx
open Cert.KernelIdeal Cert.KernelIdeal.Gen Cert.KernelIdeal.Tile Cert.KernelIdeal.Block

variable {F : FTy → Type} [FloatOps F]
variable (m : (ℓ : Loc nD τ sig) → Buf (Elt F) ℓ)

/-- The arrays as the region finds them, each at its literal type: the activations (8 × 4096), -/
abbrev actArr (c : Dev nD) : Vec F S8x4096 .f32 := V m c main_v3
/-- the scales (172 × 4096), -/
abbrev scaleArr (c : Dev nD) : Vec F S172x4096 .f32 := V m c main_v1
/-- the zero points (172 × 4096), -/
abbrev zeroArr (c : Dev nD) : Vec F S172x4096 .f32 := V m c main_v2
/-- the packed words (32 × 172 × 4096). -/
abbrev packedArr (c : Dev nD) : Vec F S32x172x4096 .i32 := V m c main_v0

/-- The output array: column `q` lies in block `q / 5504` at the block's column `q % 5504`. -/
def outArr (c : Dev nD) : Vec F S8x11008 .f32 :=
  fun j => blockOf (BitVec.ofNat 32 ((j 1).val / 5504)) (actArr m c) (scaleArr m c) (zeroArr m c) (packedArr m c)
    (ix2 (j 0 : Fin 8) (⟨(j 1).val % 5504, Nat.mod_lt _ (by decide)⟩ : Fin 5504))

/-- The output array at an index of block `n`. -/
theorem outArr_apply (c : Dev nD) (n : ℕ) (j : S8x11008.Idx) (y : S8x5504.Idx) (h0 : (j 0).val = (y 0).val)
    (h1 : (j 1).val = n * 5504 + (y 1).val) :
    outArr m c j = blockOf (BitVec.ofNat 32 n) (actArr m c) (scaleArr m c) (zeroArr m c) (packedArr m c) y := by
  have hy : (y 1).val < 5504 := (y 1).isLt
  unfold outArr
  have hA : (j 1).val / 5504 = n := by rw [h1]; omega
  have hI : ix2 (j 0 : Fin 8) (⟨(j 1).val % 5504, Nat.mod_lt _ (by decide)⟩ : Fin 5504) = y := by
    funext d
    match d with
    | ⟨0, _⟩ => exact Fin.ext h0
    | ⟨1, _⟩ => exact Fin.ext (by show (j 1).val % 5504 = (y 1).val; rw [h1]; omega)
  rw [hA]
  exact congrArg (blockOf (BitVec.ofNat 32 n) (actArr m c) (scaleArr m c) (zeroArr m c) (packedArr m c)) hI

/-- The program's result (8 × 1 × 11008): the output array plus the bias along the columns, the unit axis inserted. -/
def result (c : Dev nD) : Vec F S8x1x11008 .f32 :=
  shapeCast S8x1x11008
    (addf (outArr m c)
      (broadcastInDim S8x11008 ![0, 1] Gen.bcast_S1x11008_S8x11008_0_1
        (shapeCast S1x11008 (m ((c : Thread nD τ).loc main_arg4)) Gen.shapeCasts_S11008_S1x11008)))
    Gen.shapeCasts_S8x11008_S8x1x11008

end Cert.KernelIdeal.Result

end
-- ==== Proof.Result.lean ====
/-
  What the kernel's program leaves in its result, read off its frame run. Each input window's block is its whole array at
  both grid points; point `n` leaves in the output's staging buffer the block `Block.blockOf` with the nibble chosen by
  `n` (Block.lean) and writes it back as block `n` (columns 5504·n ‥ 5504·n + 5503) of the output array; the two blocks
  cover the array, so after the region it holds `outArr`, and the lines after the region turn it into `result`.
-/
import proofs.«419872_j29721173688947_3_alg».proof.Proof.Gen.KernelIdeal.Frame
import proofs.«419872_j29721173688947_3_alg».proof.Proof.Arrays
import Idealize.ShloMosaic.Lib.Pipeline.Value
import Idealize.ShloMosaic.Lib.StableHlo.Run
import Idealize.ShloMosaic.Lib.ValueIdx

set_option maxRecDepth 16384

noncomputable section

namespace Cert.KernelIdeal.Result

open Idealize.ShloMosaic Idealize.ShloMosaic.TcCoe Idealize.ShloMosaic.Tactic Idealize.SL.Sem
open Idealize.ShloMosaic.ValueIdx
open Idealize.ShloMosaic.Pipeline (Dat)
open Cert.KernelIdeal Cert.KernelIdeal.Gen Cert.KernelIdeal.Tile Cert.KernelIdeal.Block

variable {F : FTy → Type} [FloatOps F]
variable (m : (ℓ : Loc nD τ sig) → Buf (Elt F) ℓ) (ρ : Dev nD → PrngReg)

/-- The index maps over the grid: the three inputs always at block (0, 0), the output at block (0, n), and the grid
    coordinate of point `n` is `n`. -/
theorem index_facts : ∀ t : Fin cfg0.N,
    (win0_0.index t 0 = 0 ∧ win0_0.index t 1 = 0) ∧ (win0_1.index t 0 = 0 ∧ win0_1.index t 1 = 0)
      ∧ (win0_2.index t 0 = 0 ∧ win0_2.index t 1 = 0) ∧ (win0_3.index t 0 = 0 ∧ win0_3.index t 1 = t.val)
      ∧ (grid0.coords t 0).val = t.val :=
  (by decide +kernel : ∀ t : Fin grid0.N,
    (win0_0.index t 0 = 0 ∧ win0_0.index t 1 = 0) ∧ (win0_1.index t 0 = 0 ∧ win0_1.index t 1 = 0)
      ∧ (win0_2.index t 0 = 0 ∧ win0_2.index t 1 = 0) ∧ (win0_3.index t 0 = 0 ∧ win0_3.index t 1 = t.val)
      ∧ (grid0.coords t 0).val = t.val)

/-- The activations' block at every point is the whole array. -/
theorem iblk_act (c : Dev nD) (t : Fin cfg0.N) : (iblk m c 0 t : Vec F S8x4096 .f32) = actArr m c := by
  obtain ⟨⟨i0, i1⟩, -⟩ := index_facts t
  funext y
  unfold iblk
  rw [View.read_apply]
  show V m c main_v3 _ = V m c main_v3 y
  congr 1
  funext a
  apply Fin.ext
  match a with
  | ⟨0, _⟩ => show win0_0.index t 0 * 8 + 1 * (y 0).val = (y 0).val; rw [i0]; omega
  | ⟨1, _⟩ => show win0_0.index t 1 * 4096 + 1 * (y 1).val = (y 1).val; rw [i1]; omega

/-- The scales' block at every point is the whole array. -/
theorem iblk_scale (c : Dev nD) (t : Fin cfg0.N) : (iblk m c 1 t : Vec F S172x4096 .f32) = scaleArr m c := by
  obtain ⟨-, ⟨i0, i1⟩, -⟩ := index_facts t
  funext y
  unfold iblk
  rw [View.read_apply]
  show V m c main_v1 _ = V m c main_v1 y
  congr 1
  funext a
  apply Fin.ext
  match a with
  | ⟨0, _⟩ => show win0_1.index t 0 * 172 + 1 * (y 0).val = (y 0).val; rw [i0]; omega
  | ⟨1, _⟩ => show win0_1.index t 1 * 4096 + 1 * (y 1).val = (y 1).val; rw [i1]; omega

/-- The zero points' block at every point is the whole array. -/
theorem iblk_zero (c : Dev nD) (t : Fin cfg0.N) : (iblk m c 2 t : Vec F S172x4096 .f32) = zeroArr m c := by
  obtain ⟨-, -, ⟨i0, i1⟩, -⟩ := index_facts t
  funext y
  unfold iblk
  rw [View.read_apply]
  show V m c main_v2 _ = V m c main_v2 y
  congr 1
  funext a
  apply Fin.ext
  match a with
  | ⟨0, _⟩ => show win0_2.index t 0 * 172 + 1 * (y 0).val = (y 0).val; rw [i0]; omega
  | ⟨1, _⟩ => show win0_2.index t 1 * 4096 + 1 * (y 1).val = (y 1).val; rw [i1]; omega

/-- What point `t` writes back is block `t` of the output array. -/
theorem flushed_eq (c : Dev nD) (t : Fin cfg0.N) (hf : (cfg0.win 3).flush t = true) :
    (dats m 0 c).flushed 3 t = ((cfg0.win 3).blk t).view.read (Elt F) (outArr m c) := by
  obtain ⟨-, -, -, ⟨i0, i1⟩, ig⟩ := index_facts t
  show (cfg0.win 3).cut (grid0.coords t) ((dats m 0 c).after 3 t) = _
  rw [after0_3]
  unfold outsAt0
  rw [Block.out_eq, iblk_act, iblk_scale, iblk_zero]
  funext y
  rw [View.read_apply]
  show blockOf (BitVec.ofNat 32 (grid0.coords t 0).val) (actArr m c) (scaleArr m c) (zeroArr m c) (packedArr m c) y
    = outArr m c (((cfg0.win 3).blk t).view.emb y)
  rw [ig]
  refine (outArr_apply m c t.val _ y ?_ ?_).symm
  · show win0_3.index t 0 * 8 + 1 * (y 0).val = (y 0).val; rw [i0]; omega
  · show win0_3.index t 1 * 5504 + 1 * (y 1).val = t.val * 5504 + (y 1).val; rw [i1]; omega

/-- The output window's extents: every block is whole (8 × 5504). -/
theorem out_extents : ∀ t : Fin cfg0.N, win0_3.xsize (grid0.coords t) 0 = 8 ∧ win0_3.xsize (grid0.coords t) 1 = 5504 :=
  (by decide +kernel : ∀ t : Fin grid0.N, win0_3.xsize (grid0.coords t) 0 = 8 ∧ win0_3.xsize (grid0.coords t) 1 = 5504)

/-- Every column `q` of the output array lies in the block of point `q / 5504`. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have hN : cfg0.N = 2 := N_0
  have h0 : (i 0 : ℕ) < 8 := (i 0).isLt
  have h1 : (i 1 : ℕ) < 11008 := (i 1).isLt
  obtain ⟨t, ht⟩ : ∃ t : Fin cfg0.N, t.val = (i 1 : ℕ) / 5504 := ⟨⟨(i 1 : ℕ) / 5504, by rw [hN]; omega⟩, rfl⟩
  refine ⟨t, flush0_3 t, ?_⟩
  obtain ⟨-, -, -, ⟨i0, i1⟩, -⟩ := index_facts t
  obtain ⟨e0, e1⟩ := out_extents t
  show i ∈ ((View.whole main_v4).slice (win0_3.rect t)).set
  rw [View.set_slice_whole, Rect.mem_set_unit]
  intro a
  match a with
  | ⟨0, _⟩ =>
    show win0_3.index t 0 * win0_3.size 0 ≤ (i 0 : ℕ) ∧ (i 0 : ℕ) < win0_3.index t 0 * win0_3.size 0 + win0_3.xsize (grid0.coords t) 0
    rw [i0, e0]; omega
  | ⟨1, _⟩ =>
    show win0_3.index t 1 * win0_3.size 1 ≤ (i 1 : ℕ) ∧ (i 1 : ℕ) < win0_3.index t 1 * win0_3.size 1 + win0_3.xsize (grid0.coords t) 1
    rw [i1, e1, ht]
    show (i 1 : ℕ) / 5504 * 5504 ≤ (i 1 : ℕ) ∧ (i 1 : ℕ) < (i 1 : ℕ) / 5504 * 5504 + 5504
    omega

/-- After the region the output array holds `outArr`. -/
theorem final_out (c : Dev nD) : (dats m 0 c).arrAt 3 cfg0.N = outArr m c :=
  (dats m 0 c).arrAt_eq_of_cover 3 (outArr m c) (flushed_eq m c) (cover c)

/-- The core's buffers after the region: the pipeline's arrays at what the run leaves, the others as they were. -/
abbrev afterRegion (c : Dev nD) : Valuation τ sig (Elt F) :=
  Pipeline.withArrays (cfgs 0).spec c (V0 m c) (fun w => (dats m 0 c).arrAt w (cfgs 0).N)

/-- The lines after the region, run on those buffers. -/
theorem tail_raw (c : Dev nD) :
    Pipeline.afterTail₀ cfgs (dats m) 0 (V0 m) [hostOps1] c main_v8
      = shapeCast S8x1x11008
          (addf (afterRegion m c (Proc.devRef .tc main_v4))
            (broadcastInDim S8x11008 ![0, 1] Gen.bcast_S1x11008_S8x11008_0_1
              (shapeCast S1x11008 (afterRegion m c (Proc.devRef .tc main_arg4)) Gen.shapeCasts_S11008_S1x11008)))
          Gen.shapeCasts_S8x11008_S8x1x11008 := by
  unfold Pipeline.afterTail₀
  show StableHlo.after hostOps1 _ (Proc.devRef .tc main_v8) = _
  after_results
  rfl

/-- The output array after the region. -/
theorem afterRegion_out (c : Dev nD) : afterRegion m c (Proc.devRef .tc main_v4) = outArr m c :=
  (Pipeline.withArrays_arr spec0 launch0.win.arr_inj c _ _ 3).trans (final_out m c)

/-- The bias is no array of the pipeline and no line before the region writes it. -/
theorem afterRegion_bias (c : Dev nD) : afterRegion m c (Proc.devRef .tc main_arg4) = m ((c : Thread nD τ).loc main_arg4) :=
  (Pipeline.withArrays_of_ne _ c (V0 m c) _ main_arg4 (by exact (by decide : ∀ w, Pipeline.arrRef spec0 w ≠ main_arg4))).trans
    (V_main_arg4 m c)

/-- The lines after the region leave the program's result at `result`. -/
theorem tail_eq (c : Dev nD) :
    Pipeline.afterTail₀ cfgs (dats m) 0 (V0 m) [hostOps1] c main_v8 = result m c := by
  rw [tail_raw, afterRegion_out, afterRegion_bias]
  rfl

/-- The run, read: the result at `result`, the arguments unchanged. -/
theorem run : θ_run defs (onTc (τ := τ) (main (F := F))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.Entry.lean ====
/-
  The arrays the region finds, read at an index of the program's arguments. Each is its argument re-read row-major
  (a reshape changes no row-major position): the activations' (b, k) is the argument's (b, 0, k); the scales' and the
  zero points' (g, k) is their one row's column 4096·g + k; the packed words' (t, g, k) is row t, column 4096·g + k.
-/
import proofs.«419872_j29721173688947_3_alg».proof.Proof.Arrays
import Idealize.ShloMosaic.Lib.Pipeline.Value
import Idealize.ShloMosaic.Lib.StableHlo.Run
import Idealize.ShloMosaic.Lib.ValueIdx

noncomputable section

namespace Cert.KernelIdeal.Result

open Idealize.ShloMosaic Idealize.ShloMosaic.TcCoe Idealize.SL.Sem
open Idealize.ShloMosaic.ValueIdx
open Cert.KernelIdeal Cert.KernelIdeal.Gen

variable {F : FTy → Type} [FloatOps F]
variable (m : (ℓ : Loc nD τ sig) → Buf (Elt F) ℓ)

/-- Column 4096·g + k of a row of 704512 = 172 · 4096 entries. -/
def flatCol (g : Fin 172) (k : Fin 4096) : Fin 704512 :=
  ⟨g.val * 4096 + k.val, by have := g.isLt; have := k.isLt; omega⟩

/-- The activations as the region finds them: the argument (8 × 1 × 4096) re-read row-major as 8 × 4096. -/
theorem V_v3 (c : Dev nD) :
    (V m c main_v3 : S8x4096.Idx → Elt F .f32)
      = shapeCast S8x4096 (m ((c : Thread nD τ).loc main_arg3)) Gen.shapeCasts_S8x1x4096_S8x4096 := by
  show StableHlo.after hostOps0 (fun b => m (c, b)) (Proc.devRef .tc main_v3) = _
  after_results
  rfl

/-- The scales as the region finds them: the argument (1 × 704512) re-read row-major as 172 × 4096. -/
theorem V_v1 (c : Dev nD) :
    (V m c main_v1 : S172x4096.Idx → Elt F .f32)
      = shapeCast S172x4096 (m ((c : Thread nD τ).loc main_arg1)) Gen.shapeCasts_S1x704512_S172x4096 := by
  show StableHlo.after hostOps0 (fun b => m (c, b)) (Proc.devRef .tc main_v1) = _
  after_results
  rfl

/-- The zero points as the region finds them: the argument (1 × 704512) re-read row-major as 172 × 4096. -/
theorem V_v2 (c : Dev nD) :
    (V m c main_v2 : S172x4096.Idx → Elt F .f32)
      = shapeCast S172x4096 (m ((c : Thread nD τ).loc main_arg2)) Gen.shapeCasts_S1x704512_S172x4096 := by
  show StableHlo.after hostOps0 (fun b => m (c, b)) (Proc.devRef .tc main_v2) = _
  after_results
  rfl

/-- The packed words as the region finds them: the argument (32 × 704512) re-read row-major as 32 × 172 × 4096. -/
theorem V_v0 (c : Dev nD) :
    (V m c main_v0 : S32x172x4096.Idx → Elt F .i32)
      = shapeCast S32x172x4096 (m ((c : Thread nD τ).loc main_arg0)) Gen.shapeCasts_S32x704512_S32x172x4096 := by
  show StableHlo.after hostOps0 (fun b => m (c, b)) (Proc.devRef .tc main_v0) = _
  after_results
  rfl

/-- Position (b, k) of 8 × 4096 is position (b, 0, k) of 8 × 1 × 4096: both are 4096·b + k. -/
theorem actArr_apply (c : Dev nD) (b : Fin 8) (k : Fin 4096) :
    actArr m c (ix2 b k) = m ((c : Thread nD τ).loc main_arg3) (ix3 b (0 : Fin 1) k) := by
  have hb := b.isLt
  have hk := k.isLt
  refine (congrFun (V_v3 m c) (ix2 b k)).trans ?_
  exact shapeCast_apply _ Gen.shapeCasts_S8x1x4096_S8x4096 (ix2 b k) (ix3 b (0 : Fin 1) k)
    (by rewrite [Shape.rowMajor_val_three, Shape.rowMajor_val_two]
        show (b.val * 1 + 0) * 4096 + k.val = b.val * 4096 + k.val
        omega)

/-- Position (g, k) of 172 × 4096 is position (0, 4096·g + k) of 1 × 704512. -/
theorem scaleArr_apply (c : Dev nD) (g : Fin 172) (k : Fin 4096) :
    scaleArr m c (ix2 g k) = m ((c : Thread nD τ).loc main_arg1) (ix2 (0 : Fin 1) (flatCol g k)) := by
  have hg := g.isLt
  have hk := k.isLt
  refine (congrFun (V_v1 m c) (ix2 g k)).trans ?_
  exact shapeCast_apply _ Gen.shapeCasts_S1x704512_S172x4096 (ix2 g k) (ix2 (0 : Fin 1) (flatCol g k))
    (by rewrite [Shape.rowMajor_val_two, Shape.rowMajor_val_two]
        show 0 * 704512 + (g.val * 4096 + k.val) = g.val * 4096 + k.val
        omega)

/-- The same for the zero points. -/
theorem zeroArr_apply (c : Dev nD) (g : Fin 172) (k : Fin 4096) :
    zeroArr m c (ix2 g k) = m ((c : Thread nD τ).loc main_arg2) (ix2 (0 : Fin 1) (flatCol g k)) := by
  have hg := g.isLt
  have hk := k.isLt
  refine (congrFun (V_v2 m c) (ix2 g k)).trans ?_
  exact shapeCast_apply _ Gen.shapeCasts_S1x704512_S172x4096 (ix2 g k) (ix2 (0 : Fin 1) (flatCol g k))
    (by rewrite [Shape.rowMajor_val_two, Shape.rowMajor_val_two]
        show 0 * 704512 + (g.val * 4096 + k.val) = g.val * 4096 + k.val
        omega)

/-- Position (t, g, k) of 32 × 172 × 4096 is position (t, 4096·g + k) of 32 × 704512, as 704512 = 172 · 4096. -/
theorem packedArr_apply (c : Dev nD) (t : Fin 32) (g : Fin 172) (k : Fin 4096) :
    packedArr m c (ix3 t g k) = m ((c : Thread nD τ).loc main_arg0) (ix2 t (flatCol g k)) := by
  have ht := t.isLt
  have hg := g.isLt
  have hk := k.isLt
  refine (congrFun (V_v0 m c) (ix3 t g k)).trans ?_
  exact shapeCast_apply _ Gen.shapeCasts_S32x704512_S32x172x4096 (ix3 t g k) (ix2 t (flatCol g k))
    (by rewrite [Shape.rowMajor_val_two, Shape.rowMajor_val_three]
        show t.val * 704512 + (g.val * 4096 + k.val) = (t.val * 172 + g.val) * 4096 + k.val
        omega)

end Cert.KernelIdeal.Result

end
-- ==== Proof.TileValue.lean ====
/-
  One tile of the kernel read at an element, at the ideal instance: the tile's entry (b, g) is the sum over the 4096
  input features k of x[b, k] times the dequantized weight (code − zero[g, k]) · scale[g, k], the code being the nibble
  of the packed word w[g, k] that the stacked row r selects. The matrix product into a zero accumulator is the plain
  sum over its contracted axis; both roundings to bf16 are the identity on ideal values; the integer-to-float
  conversion is the signed integer itself; and the select between the two nibbles, decided once for the whole slab by
  the grid coordinate, is the specification's choice by the stacked row.
-/
import proofs.«419872_j29721173688947_3_alg».proof.Proof.Tile
import proofs.«419872_j29721173688947_3_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Tile

open Idealize.ShloMosaic Idealize.ShloMosaic.ValueIdx Idealize.SL.Sem Cert.KernelIdeal

/-! ## The product's index maps: the left operand is read at (output axis 0, contracted), the right at
    (output axis 1, contracted) -/

theorem lhs_tile_0 (i : S8x172.Idx) (q : dot_S8x4096_S172x4096_S8x172_1_1_0_0_n_n.contr.Idx) :
    (dot_S8x4096_S172x4096_S8x172_1_1_0_0_n_n.lhsIdx i q 0).val = (i 0).val := by
  unfold DotDims.lhsIdx
  rw [dif_neg (show ¬(0 : Fin S8x4096.rank) ∈ dot_S8x4096_S172x4096_S8x172_1_1_0_0_n_n.lhsBatch by decide), dif_pos (show (0 : Fin S8x4096.rank) ∈ dot_S8x4096_S172x4096_S8x172_1_1_0_0_n_n.lhsNonContracting by decide)]
  rfl
theorem lhs_tile_1 (i : S8x172.Idx) (q : dot_S8x4096_S172x4096_S8x172_1_1_0_0_n_n.contr.Idx) :
    (dot_S8x4096_S172x4096_S8x172_1_1_0_0_n_n.lhsIdx i q 1).val = (q ⟨0, by decide⟩).val :=
  dot_S8x4096_S172x4096_S8x172_1_1_0_0_n_n.lhsIdx_val_of_single rfl i q
theorem rhs_tile_0 (i : S8x172.Idx) (q : dot_S8x4096_S172x4096_S8x172_1_1_0_0_n_n.contr.Idx) :
    (dot_S8x4096_S172x4096_S8x172_1_1_0_0_n_n.rhsIdx i q 0).val = (i 1).val := by
  unfold DotDims.rhsIdx
  rw [dif_neg (show ¬(0 : Fin S172x4096.rank) ∈ dot_S8x4096_S172x4096_S8x172_1_1_0_0_n_n.rhsBatch by decide), dif_pos (show (0 : Fin S172x4096.rank) ∈ dot_S8x4096_S172x4096_S8x172_1_1_0_0_n_n.rhsNonContracting by decide)]
  rfl
theorem rhs_tile_1 (i : S8x172.Idx) (q : dot_S8x4096_S172x4096_S8x172_1_1_0_0_n_n.contr.Idx) :
    (dot_S8x4096_S172x4096_S8x172_1_1_0_0_n_n.rhsIdx i q 1).val = (q ⟨0, by decide⟩).val :=
  dot_S8x4096_S172x4096_S8x172_1_1_0_0_n_n.rhsIdx_val_of_single rfl i q

/-! ## The codes: the slab-wide select is the specification's choice of nibble -/

/-- The comparison of the grid coordinate with 0 is the bit 1 exactly when the coordinate is 0. -/
theorem cmpi_eq_zero_eq_one_iff (a : BitVec 32) : Scalar.cmpi .eq a 0#32 = (1 : BitVec 1) ↔ a = 0#32 := by
  show BitVec.ofBool (a == 0#32) = (1 : BitVec 1) ↔ a = 0#32
  by_cases ha : a = 0#32
  · subst ha; exact ⟨fun _ => rfl, fun _ => rfl⟩
  · rw [beq_false_of_ne ha]
    exact ⟨fun h => absurd h (by decide), fun h => absurd h ha⟩

/-- An arithmetic shift right by the literal 4 on the vector unit is the shift by four places. -/
theorem shrsi_four (v : BitVec 32) : IntOp.shrsi .vector v 4#32 = v.sshiftRight 4 := by
  unfold IntOp.shrsi
  rw [if_pos (by decide)]
  rfl

/-- The code the body extracts at an element is the specification's code of that packed word for stacked row `r`,
    when the grid coordinate is 0 exactly for the rows that take the high nibble. -/
theorem codesOf_apply (a : BitVec 32) (r : Nat) (h : a = 0#32 ↔ r < 32) (w : Vec Ideal S172x4096 .i32) (g : Fin 172)
    (k : Fin 4096) : codesOf (F := Ideal) a w (ix2 g k) = Hqq.code r (w (ix2 g k)) := by
  unfold codesOf Hqq.code Scalar.select
  by_cases hr : r < 32
  · rw [if_pos ((cmpi_eq_zero_eq_one_iff a).2 (h.2 hr)), if_pos hr]
    show IntOp.andi (IntOp.shrsi .vector (IntOp.andi (w (ix2 g k)) 255#32) 4#32) 15#32 = _
    rw [shrsi_four]
    exact Hqq.hi_nibble_of_low_byte _
  · rw [if_neg (fun hc => hr (h.1 ((cmpi_eq_zero_eq_one_iff a).1 hc))), if_neg hr]
    exact Hqq.lo_nibble_of_low_byte _

/-! ## The tile at an element -/

open Idealize.ShloMosaic Idealize.ShloMosaic.ValueIdx Cert.KernelIdeal in
theorem tile_apply (a : BitVec 32) (r : Nat) (h : a = 0#32 ↔ r < 32) (x : Vec Ideal S8x4096 .f32) (scale zero : Vec Ideal S172x4096 .f32) (w : Vec Ideal S172x4096 .i32) (b : Fin 8) (g : Fin 172) :
    tileOf (F := Ideal) a x scale zero w (ix2 b g)
      = ∑ k : Fin 4096, x (ix2 b k) * (((((Hqq.code r (w (ix2 g k))).toInt : ℝ) : EReal) - zero (ix2 g k)) * scale (ix2 g k)) := by
  unfold tileOf
  refine (Ideal.matmul_constant_zero_apply dot_S8x4096_S172x4096_S8x172_1_1_0_0_n_n none _ _ (ix2 b g)).trans ?_
  rw [← Equiv.sum_comp (ValueIdx.contrEquiv1 dot_S8x4096_S172x4096_S8x172_1_1_0_0_n_n 4096 rfl rfl).symm]
  refine Finset.sum_congr rfl fun k _ => ?_
  have hk := ValueIdx.contrEquiv1_symm_val dot_S8x4096_S172x4096_S8x172_1_1_0_0_n_n 4096 rfl rfl k
  have el : dot_S8x4096_S172x4096_S8x172_1_1_0_0_n_n.lhsIdx (ix2 b g) ((ValueIdx.contrEquiv1 dot_S8x4096_S172x4096_S8x172_1_1_0_0_n_n 4096 rfl rfl).symm k) = ix2 b k := funext fun c => Fin.ext (by
    match c with
    | ⟨0, _⟩ => exact lhs_tile_0 _ _
    | ⟨1, _⟩ => exact (lhs_tile_1 _ _).trans hk)
  have er : dot_S8x4096_S172x4096_S8x172_1_1_0_0_n_n.rhsIdx (ix2 b g) ((ValueIdx.contrEquiv1 dot_S8x4096_S172x4096_S8x172_1_1_0_0_n_n 4096 rfl rfl).symm k) = ix2 g k := funext fun c => Fin.ext (by
    match c with
    | ⟨0, _⟩ => exact rhs_tile_0 _ _
    | ⟨1, _⟩ => exact (rhs_tile_1 _ _).trans hk)
  rw [el, er]
  unfold actOf
  rw [shapeCast_self, shapeCast_self, shapeCast_self]
  show x (ix2 b k) * (((((codesOf (F := Ideal) a w (ix2 g k)).toInt : ℝ) : EReal) - zero (ix2 g k)) * scale (ix2 g k))
    = _
  rw [codesOf_apply a r h w g k]

end Cert.KernelIdeal.Tile

end
-- ==== Proof.Bridge.lean ====
/-
  The kernel program's result is the linear layer of the specification. Output feature o lies in grid block o / 5504
  (5504 = 32 · 172), in that block's tile (o % 5504) / 172 at the tile's column (o % 5504) % 172 = o % 172. The block's
  coordinate is 0 exactly when o's stacked row o / 172 is below 32, which is the specification's choice of nibble; the
  tile's slab is packed row (o / 172) % 32; and the tile's column g = o % 172 together with the input feature k names
  column 4096 · g + k of the code matrix. So the tile's sum over k is the specification's sum of x[b, 0, k] · W[o, k],
  and the lines after the region add bias[o] and insert the unit axis.
-/
import proofs.«419872_j29721173688947_3_alg».proof.Proof.Entry
import proofs.«419872_j29721173688947_3_alg».proof.Proof.TileValue
import proofs.«419872_j29721173688947_3_alg».proof.Proof.Spec
import Idealize.ShloMosaic.Lib.Pipeline.Value
import Idealize.ShloMosaic.Lib.ValueIdx

noncomputable section

open scoped BigOperators

namespace Cert.KernelIdeal.Result

open Idealize.ShloMosaic Idealize.ShloMosaic.TcCoe Idealize.SL.Sem
open Idealize.ShloMosaic.ValueIdx
open Cert.KernelIdeal Cert.KernelIdeal.Gen Cert.KernelIdeal.Tile Cert.KernelIdeal.Block

/-! ## The arithmetic of the coordinates -/

/-- The grid block of output feature `o` is block 0 exactly when `o`'s stacked row takes the high nibble. -/
theorem block_zero_iff (o : Fin 11008) : BitVec.ofNat 32 (o.val / 5504) = 0#32 ↔ o.val / 172 < 32 := by
  have ho : o.val < 11008 := o.isLt
  by_cases h : o.val < 5504
  · have h0 : o.val / 5504 = 0 := by omega
    have h1 : o.val / 172 < 32 := by omega
    rw [h0]
    exact ⟨fun _ => h1, fun _ => rfl⟩
  · have h0 : o.val / 5504 = 1 := by omega
    have h1 : ¬o.val / 172 < 32 := by omega
    rw [h0]
    exact ⟨fun e => absurd e (by decide), fun e => absurd e h1⟩

/-- The tile's column of output feature `o` and input feature `k` name the specification's column of the code matrix. -/
theorem flatCol_eq_col (o : Fin 11008) (k : Fin 4096) :
    flatCol (⟨o.val % 5504 % 172, Nat.mod_lt _ (by decide)⟩ : Fin 172) k = Hqq.col o k :=
  Fin.ext (by
    show o.val % 5504 % 172 * 4096 + k.val = o.val % 172 * 4096 + k.val
    have h : o.val % 5504 % 172 = o.val % 172 := by omega
    rw [h])

/-- The slab of output feature `o`'s tile is the packed row of `o`'s stacked row. -/
theorem slabRow_eq_prow (o : Fin 11008) :
    (⟨o.val % 5504 / 172 % 32, Nat.mod_lt _ (by decide)⟩ : Fin 32) = Hqq.prow (Hqq.srow o) :=
  Fin.ext (by
    show o.val % 5504 / 172 % 32 = o.val / 172 % 32
    have ho : o.val < 11008 := o.isLt
    omega)

/-! ## The specification at an element -/

/-- The specification's sum for batch row `b` and output feature `o`: Σ_k x[b, u, k] · W[o, k]. -/
def rowSum (P : (⟨2, ![32, 704512]⟩ : Shape).Idx → BitVec 32) (scale zero : (⟨2, ![1, 704512]⟩ : Shape).Idx → EReal)
    (x : (⟨3, ![8, 1, 4096]⟩ : Shape).Idx → EReal) (b : Fin 8) (u : Fin 1) (o : Fin 11008) : EReal :=
  ∑ k : Fin 4096, x (ix3 b u k) * Hqq.weight P scale zero o k

/-- The layer at an index is that sum plus the bias of the output feature. -/
theorem linear_apply (P : (⟨2, ![32, 704512]⟩ : Shape).Idx → BitVec 32) (scale zero : (⟨2, ![1, 704512]⟩ : Shape).Idx → EReal)
    (x : (⟨3, ![8, 1, 4096]⟩ : Shape).Idx → EReal) (bias : (⟨1, ![11008]⟩ : Shape).Idx → EReal)
    (i : (⟨3, ![8, 1, 11008]⟩ : Shape).Idx) :
    Hqq.linear P scale zero x bias i
      = rowSum P scale zero x (i 0 : Fin 8) (i 1 : Fin 1) (i 2 : Fin 11008) + bias (ix1 (i 2 : Fin 11008)) := rfl

/-! ## The output array at an element -/

section
variable (m : (ℓ : Loc nD τ sig) → Buf (Elt Ideal) ℓ)

/-- The output array's entry (b, o) is the specification's sum for output feature `o`, without the bias. -/
theorem outArr_elem (c : Dev nD) (b : Fin 8) (o : Fin 11008) :
    outArr (F := Ideal) m c (ix2 b o)
      = rowSum (m ((c : Thread nD τ).loc main_arg0)) (m ((c : Thread nD τ).loc main_arg1))
          (m ((c : Thread nD τ).loc main_arg2)) (m ((c : Thread nD τ).loc main_arg3)) b (0 : Fin 1) o := by
  unfold outArr blockOf rowSum
  refine (tile_apply (BitVec.ofNat 32 (o.val / 5504)) (o.val / 172) (block_zero_iff o) (actArr m c) (scaleArr m c)
    (zeroArr m c) (slab (packedArr m c) (o.val % 5504 / 172)) b
    (⟨o.val % 5504 % 172, Nat.mod_lt _ (by decide)⟩ : Fin 172)).trans ?_
  refine Finset.sum_congr rfl fun k _ => ?_
  have hx : actArr m c (ix2 b k) = m ((c : Thread nD τ).loc main_arg3) (ix3 b (0 : Fin 1) k) := actArr_apply m c b k
  have hz : zeroArr m c (ix2 (⟨o.val % 5504 % 172, Nat.mod_lt _ (by decide)⟩ : Fin 172) k)
      = m ((c : Thread nD τ).loc main_arg2) (ix2 (0 : Fin 1) (Hqq.col o k)) :=
    (zeroArr_apply m c _ k).trans
      (congrArg (fun q => m ((c : Thread nD τ).loc main_arg2) (ix2 (0 : Fin 1) q)) (flatCol_eq_col o k))
  have hs : scaleArr m c (ix2 (⟨o.val % 5504 % 172, Nat.mod_lt _ (by decide)⟩ : Fin 172) k)
      = m ((c : Thread nD τ).loc main_arg1) (ix2 (0 : Fin 1) (Hqq.col o k)) :=
    (scaleArr_apply m c _ k).trans
      (congrArg (fun q => m ((c : Thread nD τ).loc main_arg1) (ix2 (0 : Fin 1) q)) (flatCol_eq_col o k))
  have hp : slab (packedArr m c) (o.val % 5504 / 172) (ix2 (⟨o.val % 5504 % 172, Nat.mod_lt _ (by decide)⟩ : Fin 172) k)
      = m ((c : Thread nD τ).loc main_arg0) (ix2 (Hqq.prow (Hqq.srow o)) (Hqq.col o k)) :=
    (packedArr_apply m c (⟨o.val % 5504 / 172 % 32, Nat.mod_lt _ (by decide)⟩ : Fin 32)
        (⟨o.val % 5504 % 172, Nat.mod_lt _ (by decide)⟩ : Fin 172) k).trans
      (by rw [slabRow_eq_prow o, flatCol_eq_col o k])
  rw [hx, hz, hs, hp]
  rfl

/-- The bias along the columns, read at (b, o), is `bias[o]`. -/
theorem bias_elem (c : Dev nD) (b : Fin 8) (o : Fin 11008) :
    broadcastInDim S8x11008 ![0, 1] Gen.bcast_S1x11008_S8x11008_0_1
        (shapeCast S1x11008 (m ((c : Thread nD τ).loc main_arg4)) Gen.shapeCasts_S11008_S1x11008) (ix2 b o)
      = m ((c : Thread nD τ).loc main_arg4) (ix1 o) := by
  refine (broadcastInDim_apply _ Gen.bcast_S1x11008_S8x11008_0_1 _ (ix2 b o) (ix2 (0 : Fin 1) o) (fun a => match a with
    | ⟨0, _⟩ => by show 0 = if (1 : Nat) = 1 then 0 else b.val; rw [if_pos rfl]
    | ⟨1, _⟩ => by show o.val = if (11008 : Nat) = 1 then 0 else o.val; rw [if_neg (by decide)])).trans ?_
  exact shapeCast_apply _ Gen.shapeCasts_S11008_S1x11008 (ix2 (0 : Fin 1) o) (ix1 o)
    (by rewrite [Shape.rowMajor_val_one, Shape.rowMajor_val_two]; show o.val = 0 * 11008 + o.val; omega)

end

/-! ## The result -/

open Idealize.ShloMosaic Idealize.ShloMosaic.TcCoe Idealize.SL.Sem Cert.KernelIdeal in
theorem result_eq_linear (m : (ℓ : Loc nD τ sig) → Buf (Elt Ideal) ℓ) (c : Dev nD) :
    result (F := Ideal) m c
      = Hqq.linear (m ((c : Thread nD τ).loc main_arg0)) (m ((c : Thread nD τ).loc main_arg1)) (m ((c : Thread nD τ).loc main_arg2)) (m ((c : Thread nD τ).loc main_arg3)) (m ((c : Thread nD τ).loc main_arg4)) := by
  funext i
  have h0 : (i 0).val < 8 := (i 0).isLt
  have h1 : (i 1).val < 1 := (i 1).isLt
  have h2 : (i 2).val < 11008 := (i 2).isLt
  have hu : @Eq (Fin 1) (i 1) 0 := Fin.ext (by show (i 1).val = 0; omega)
  unfold result
  refine (shapeCast_apply _ Gen.shapeCasts_S8x11008_S8x1x11008 i (ix2 (i 0 : Fin 8) (i 2 : Fin 11008))
    (by rewrite [Shape.rowMajor_val_two, Shape.rowMajor_val_three]
        show (i 0).val * 11008 + (i 2).val = ((i 0).val * 1 + (i 1).val) * 11008 + (i 2).val
        omega)).trans ?_
  refine (addf_apply _ _ _).trans ?_
  refine Eq.trans ?_ (linear_apply _ _ _ _ _ i).symm
  rw [outArr_elem m c (i 0 : Fin 8) (i 2 : Fin 11008), bias_elem m c (i 0 : Fin 8) (i 2 : Fin 11008), hu]

end Cert.KernelIdeal.Result

end
-- ==== Proof.lean ====
/-
  The certificate: a linear layer whose 11008 × 4096 weight matrix is stored as 4-bit codes packed two to a byte, with
  one zero point and one scale per group, computed by a fused kernel — each of its two grid points unpacks one nibble of
  every packed word, dequantizes 32 slabs of 172 weight rows and contracts them with the activations tile by tile — and
  by a plain reference that unpacks, dequantizes and reshapes the whole matrix and contracts once. Over the extended reals
  both results are `y[b, 0, o] = Σ_k x[b, 0, k] · (code[o, k] − zero) · scale + bias[o]` (`Hqq.linear`): the kernel's
  tiles are that sum restricted to their 172 output features (the matrix product into a zero accumulator is the plain
  sum, the casts to bf16 are the identity), masking a word to its low byte first changes neither nibble, and output
  feature `o` of block `n`, slab `t`, row `g` is `o = 5504·n + 172·t + g`, stacked code row `32·n + t`. No law of the
  extended reals beyond reading both sides as the same sum is used, so the inputs' finiteness is not needed.
-/
import proofs.«419872_j29721173688947_3_alg».proof.Defs
import proofs.«419872_j29721173688947_3_alg».proof.Proof.Gen.Kernel
import proofs.«419872_j29721173688947_3_alg».proof.Proof.Gen.Kernel.Skeleton
import proofs.«419872_j29721173688947_3_alg».proof.Proof.Gen.Kernel.Launch
import proofs.«419872_j29721173688947_3_alg».proof.Proof.Gen.Kernel.Points
import proofs.«419872_j29721173688947_3_alg».proof.Proof.Gen.Kernel.Frame
import proofs.«419872_j29721173688947_3_alg».proof.Proof.Gen.KernelIdeal
import proofs.«419872_j29721173688947_3_alg».proof.Proof.Gen.KernelIdeal.Skeleton
import proofs.«419872_j29721173688947_3_alg».proof.Proof.Gen.KernelIdeal.Launch
import proofs.«419872_j29721173688947_3_alg».proof.Proof.Gen.KernelIdeal.Points
import proofs.«419872_j29721173688947_3_alg».proof.Proof.Gen.KernelIdeal.Frame
import proofs.«419872_j29721173688947_3_alg».proof.Proof.Gen.ReferenceIdeal
import proofs.«419872_j29721173688947_3_alg».proof.Proof.Gen.Pre_finite_inputs
import proofs.«419872_j29721173688947_3_alg».proof.Proof.Gen.ReferenceIdeal.Run
import proofs.«419872_j29721173688947_3_alg».proof.Proof.Gen.ReferenceIdeal.Read
import proofs.«419872_j29721173688947_3_alg».proof.Proof.RefSide
import proofs.«419872_j29721173688947_3_alg».proof.Proof.Result
import proofs.«419872_j29721173688947_3_alg».proof.Proof.Bridge
import Idealize.ShloMosaic.Adequacy
import Idealize.ShloMosaic.Init

noncomputable section

namespace Cert.Proof

open Idealize.ShloMosaic Idealize.SL.Sem

/-- The word-level kernel runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at the layer `Hqq.linear` of the arguments they agree on. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Result.result (F := Ideal) m c, Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Result.result (F := Ideal) m c
  rw [Cert.ReferenceIdeal.Read.val_main_v16_eq, Cert.ReferenceIdeal.RefValue.ref_eq_linear,
    Cert.KernelIdeal.Result.result_eq_linear,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
